-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x32 : Shape := ⟨2, ![16384, 32]⟩
abbrev S100000x256 : Shape := ⟨2, ![100000, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S16384 32) (main_arg1 : IVec S16384x32 32) (main_arg2 : FVec F S100000x256 .f32) (main_arg3 : FVec F S256x256 .f32) (main_arg4 : FVec F S256 .f32) (main_arg5 : FVec F S256x256 .f32) (main_arg6 : FVec F S256 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S16384 : Shape := ⟨1, ![16384]⟩
abbrev S16384x32 : Shape := ⟨2, ![16384, 32]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S16384x1 : Shape := ⟨2, ![16384, 1]⟩
abbrev S16384x256 : Shape := ⟨2, ![16384, 256]⟩
abbrev S16384x32x1 : Shape := ⟨3, ![16384, 32, 1]⟩
abbrev S16384x32x256 : Shape := ⟨3, ![16384, 32, 256]⟩
abbrev S1x256 : Shape := ⟨2, ![1, 256]⟩
abbrev S16384x512 : Shape := ⟨2, ![16384, 512]⟩
abbrev S2048x256 : Shape := ⟨2, ![2048, 256]⟩
abbrev S2048x512 : Shape := ⟨2, ![2048, 512]⟩

abbrev nBuf : Space → Nat
  | .hbm => 35
  | .vmem => 10
  | .smem => 0
  | _ => 0

abbrev bufTy : (tb : Table) → Fin (tcTables nBuf tb) → BufTy
  | .hbm, ⟨0, _⟩ => ⟨S16384, .i32⟩
  | .hbm, ⟨1, _⟩ => ⟨S16384x32, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x256, .f32⟩
  | .hbm, ⟨16, _⟩ => ⟨S_, .i32⟩
  | .hbm, ⟨17, _⟩ => ⟨S16384x32, .i32⟩
  | .hbm, ⟨18, _⟩ => ⟨S16384x32, .i1⟩
  | .hbm, ⟨19, _⟩ => ⟨S_, .i32⟩
  | .hbm, ⟨20, _⟩ => ⟨S16384x32, .i32⟩
  | .hbm, ⟨21, _⟩ => ⟨S16384x32, .i32⟩
  | .hbm, ⟨22, _⟩ => ⟨S16384x32, .i32⟩
  | .hbm, ⟨23, _⟩ => ⟨S16384x32x1, .i32⟩
  | .hbm, ⟨24, _⟩ => ⟨S16384x32x256, .f32⟩
  | .hbm, ⟨25, _⟩ => ⟨S_, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S256x256, .f32⟩
  | .hbm, ⟨31, _⟩ => ⟨S256x256, .f32⟩
  | .hbm, ⟨32, _⟩ => ⟨S1x256, .f32⟩
  | .hbm, ⟨33, _⟩ => ⟨S1x256, .f32⟩
  | .hbm, ⟨34, _⟩ => ⟨S16384x512, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S2048x512, .f32⟩
  | .local _ .vmem, ⟨9, _⟩ => ⟨S2048x512, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x256_S16384x256_d1 : S16384x32x256.ReducesTo [1] S16384x256
  h_S_ : 0 < S_.numel
  bcast_S_S16384x256 : S_.BroadcastsInDim S16384x256 (![] : Fin 0 → Fin S16384x256.rank)
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  concatenates_S2048x256_S2048x256_S2048x512_d1 : Shape.Concatenates [S2048x256, S2048x256] S2048x512 1
  inb_S2048x512_S2048x512_0_0 : ∀ a, (![0, 0] : Fin 2 → Nat) a + S2048x512.size a ≤ S2048x512.size a
  h_S2048x512 : 0 < S2048x512.numel
  gather_S100000x256_S16384x1_S16384x256_1_0_n_n_0_1_1256_wf : GatherDims.WF S100000x256 S16384x1 S16384x256 [1] [0] [] [0] [] 1 ![1, 256]
  gather_S100000x256_S16384x32x1_S16384x32x256_2_0_n_n_0_2_1256_wf : GatherDims.WF S100000x256 S16384x32x1 S16384x32x256 [2] [0] [] [0] [] 2 ![1, 256]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S16384x512.size a
  hwx0_6 : ∀ i : grid0.Coords, EltTy.bits .f32 = 32 ∨ (Rect.block (s := S16384x512) S2048x512.size (cc0_transform_6 i) (hinb0_6 i)).WholeWords (EltTy.packing .f32)

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S100000x256_S16384x32x1_S16384x32x256_2_0_n_n_0_2_1256 : GatherDims S100000x256 S16384x32x1 S16384x32x256 where
  offsetDims := [2]
  collapsedSliceDims := [0]
  operandBatchingDims := []
  startIndicesBatchingDims := []
  startIndexMap := [0]
  indexVectorDim := 2
  sliceSizes := ![1, 256]
  wf := gather_S100000x256_S16384x32x1_S16384x32x256_2_0_n_n_0_2_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v6) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384 : Shape := ⟨1, ![16384]⟩
abbrev S16384x32 : Shape := ⟨2, ![16384, 32]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S16384x1 : Shape := ⟨2, ![16384, 1]⟩
abbrev S16384x256 : Shape := ⟨2, ![16384, 256]⟩
abbrev S16384x32x1 : Shape := ⟨3, ![16384, 32, 1]⟩
abbrev S16384x32x256 : Shape := ⟨3, ![16384, 32, 256]⟩
abbrev S1x256 : Shape := ⟨2, ![1, 256]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x32, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x256, .f32⟩
  | .hbm, ⟨16, _⟩ => ⟨S_, .i32⟩
  | .hbm, ⟨17, _⟩ => ⟨S16384x32, .i32⟩
  | .hbm, ⟨18, _⟩ => ⟨S16384x32, .i1⟩
  | .hbm, ⟨19, _⟩ => ⟨S_, .i32⟩
  | .hbm, ⟨20, _⟩ => ⟨S16384x32, .i32⟩
  | .hbm, ⟨21, _⟩ => ⟨S16384x32, .i32⟩
  | .hbm, ⟨22, _⟩ => ⟨S16384x32, .i32⟩
  | .hbm, ⟨23, _⟩ => ⟨S16384x32x1, .i32⟩
  | .hbm, ⟨24, _⟩ => ⟨S16384x32x256, .f32⟩
  | .hbm, ⟨25, _⟩ => ⟨S_, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S256x256, .f32⟩
  | .hbm, ⟨31, _⟩ => ⟨S16384x256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S256x256, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x256_S16384x256_d1 : S16384x32x256.ReducesTo [1] S16384x256
  h_S_ : 0 < S_.numel
  bcast_S_S16384x256 : S_.BroadcastsInDim S16384x256 (![] : Fin 0 → Fin S16384x256.rank)
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S16384x256_S16384x256_S16384x512_d1 : Shape.Concatenates [S16384x256, S16384x256] S16384x512 1
  bcast_S_S16384x512 : S_.BroadcastsInDim S16384x512 (![] : Fin 0 → Fin S16384x512.rank)
  gather_S100000x256_S16384x1_S16384x256_1_0_n_n_0_1_1256_wf : GatherDims.WF S100000x256 S16384x1 S16384x256 [1] [0] [] [0] [] 1 ![1, 256]
  gather_S100000x256_S16384x32x1_S16384x32x256_2_0_n_n_0_2_1256_wf : GatherDims.WF S100000x256 S16384x32x1 S16384x32x256 [2] [0] [] [0] [] 2 ![1, 256]
  dot_S16384x256_S256x256_S16384x256_1_0_0_1_n_n_wf : DotDims.WF S16384x256 S256x256 S16384x256 [1] [0] [0] [1] [] []

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S100000x256_S16384x32x1_S16384x32x256_2_0_n_n_0_2_1256 : GatherDims S100000x256 S16384x32x1 S16384x32x256 where
  offsetDims := [2]
  collapsedSliceDims := [0]
  operandBatchingDims := []
  startIndicesBatchingDims := []
  startIndexMap := [0]
  indexVectorDim := 2
  sliceSizes := ![1, 256]
  wf := gather_S100000x256_S16384x32x1_S16384x32x256_2_0_n_n_0_2_1256_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.Spec.lean ====
/-
  What both programs compute, entry by entry, over the extended reals.

  Two 16384 × 256 arrays of features enter: `A`, whose row `p` is the embedding row the node index `x0[p]` names, and
  `N`, whose row `p` is the mean of the 32 embedding rows the neighbour indices `x1[p, ·]` name. Each passes through its
  own linear layer, a 256 × 256 weight matrix `W` applied from the right TRANSPOSED and a bias row `b` added, so that a
  layer's entry `(p, q)` is

      Σₖ feats[p, k] · W[q, k]  +  b[q].

  The two 16384 × 256 results stand side by side in a 16384 × 512 array, the first layer on columns 0 … 255 and the second
  on columns 256 … 511, and every entry is replaced by its maximum with zero.

  Row `p` of the result depends on row `p` of the features only, so cutting the rows into blocks changes nothing, and the
  sum over `k` is the same sum on both sides, term by term: no law of the extended reals is needed to join the two
  programs, and none that would ask the inputs to be finite.
-/
import Idealize.ShloMosaic.PureOps.Ideal.Laws
import Idealize.ShloMosaic.Lib.ValueIdx

noncomputable section

namespace Cert.DualLinear

open Idealize.ShloMosaic Idealize.ShloMosaic.ValueIdx

/-- One linear layer at entry `(p, q)`: row `p` of the features against row `q` of the weights, plus the bias at `q`. -/
def linear (feats : FVec Ideal ⟨2, ![16384, 256]⟩ .f32) (W : FVec Ideal ⟨2, ![256, 256]⟩ .f32) (b : FVec Ideal ⟨1, ![256]⟩ .f32)
    (p : Fin 16384) (q : Fin 256) : EReal :=
  (∑ k : Fin 256, feats (ix2 p k) * W (ix2 q k)) + b (ix1 q)

/-- The result at row `p`, column `j`: the first layer left of column 256, the second from there on, and the maximum
    with zero (the zero kept as the word both programs print). -/
def cell (A N : FVec Ideal ⟨2, ![16384, 256]⟩ .f32) (W₁ W₂ : FVec Ideal ⟨2, ![256, 256]⟩ .f32) (b₁ b₂ : FVec Ideal ⟨1, ![256]⟩ .f32)
    (p : Fin 16384) (j : Fin 512) : EReal :=
  max (if h : j.val < 256 then linear A W₁ b₁ p ⟨j.val, h⟩
       else linear N W₂ b₂ p ⟨j.val - 256, by have := j.isLt; omega⟩)
    (Ideal.ofBits .f32 0x00000000#32)

/-- The whole 16384 × 512 result as one function of the two feature arrays, the two weight matrices and the two biases. -/
def dualLinear (A N : FVec Ideal ⟨2, ![16384, 256]⟩ .f32) (W₁ W₂ : FVec Ideal ⟨2, ![256, 256]⟩ .f32) (b₁ b₂ : FVec Ideal ⟨1, ![256]⟩ .f32) :
    FVec Ideal ⟨2, ![16384, 512]⟩ .f32 :=
  fun i => cell A N W₁ W₂ b₁ b₂ (i 0) (i 1)

theorem dualLinear_apply (A N : FVec Ideal ⟨2, ![16384, 256]⟩ .f32) (W₁ W₂ : FVec Ideal ⟨2, ![256, 256]⟩ .f32) (b₁ b₂ : FVec Ideal ⟨1, ![256]⟩ .f32)
    (p : Fin 16384) (j : Fin 512) : dualLinear A N W₁ W₂ b₁ b₂ (ix2 p j) = cell A N W₁ W₂ b₁ b₂ p j := rfl

/-- Left of column 256 the entry is the first layer's, cut off at zero. -/
theorem cell_left (A N : FVec Ideal ⟨2, ![16384, 256]⟩ .f32) (W₁ W₂ : FVec Ideal ⟨2, ![256, 256]⟩ .f32) (b₁ b₂ : FVec Ideal ⟨1, ![256]⟩ .f32)
    (p : Fin 16384) (j : Fin 512) (h : j.val < 256) :
    cell A N W₁ W₂ b₁ b₂ p j = max (linear A W₁ b₁ p ⟨j.val, h⟩) (Ideal.ofBits .f32 0x00000000#32) := by
  unfold cell; rw [dif_pos h]

/-- From column 256 on it is the second layer's at column `j - 256`, cut off at zero. -/
theorem cell_right (A N : FVec Ideal ⟨2, ![16384, 256]⟩ .f32) (W₁ W₂ : FVec Ideal ⟨2, ![256, 256]⟩ .f32) (b₁ b₂ : FVec Ideal ⟨1, ![256]⟩ .f32)
    (p : Fin 16384) (j : Fin 512) (h : ¬ j.val < 256) :
    cell A N W₁ W₂ b₁ b₂ p j
      = max (linear N W₂ b₂ p ⟨j.val - 256, by have := j.isLt; omega⟩) (Ideal.ofBits .f32 0x00000000#32) := by
  unfold cell; rw [dif_neg h]

end Cert.DualLinear

end
-- ==== Proof.RefIs.lean ====
/-
  The reference computes the specification.

  Read one operation at a time, the reference's result at `(p, j)` is the maximum with zero of one of two arrays joined
  along the columns; left of column 256 that array is a product of the gathered rows with the transposed first weight
  matrix plus the first bias, broadcast over the rows, and from column 256 on the same of the neighbour means, the second
  matrix and the second bias. The product at `(p, q)` is the sum over `k` of `feats[p, k] · Wᵀ[k, q]`, and `Wᵀ[k, q]` is
  `W[q, k]`: the specification's linear layer. The gathered rows and the neighbour means are left as the stages that
  compute them: the kernel's program computes them by the same operations, so they are never opened.
-/
import proofs.«160729_j69475390980334_1_alg».proof.Proof.Gen.ReferenceIdeal.Read
import proofs.«160729_j69475390980334_1_alg».proof.Proof.Spec

noncomputable section

namespace Cert.DualLinear.Ref

open Cert.ReferenceIdeal Cert.ReferenceIdeal.Gen Cert.ReferenceIdeal.Read
open Idealize.ShloMosaic Idealize.ShloMosaic.ValueIdx Cert.DualLinear

/-- The product's left index at `(p, q)`, term `k`: row `p`, column `k` of the features. -/
theorem lidx18 (p : Fin 16384) (q : Fin 256) (k : Fin 256) : lidx_main_v18 (ix2 p q) k = ix2 p k :=
  funext fun a => Fin.ext (by match a with | ⟨0, _⟩ => rfl | ⟨1, _⟩ => rfl)
/-- Its right index, through the transpose: row `q`, column `k` of the weights. -/
theorem ridx18 (p : Fin 16384) (q : Fin 256) (k : Fin 256) : idx_main_v17 (ridx_main_v18 (ix2 p q) k) = ix2 q k :=
  funext fun a => Fin.ext (by match a with | ⟨0, _⟩ => rfl | ⟨1, _⟩ => rfl)
theorem lidx23 (p : Fin 16384) (q : Fin 256) (k : Fin 256) : lidx_main_v23 (ix2 p q) k = ix2 p k :=
  funext fun a => Fin.ext (by match a with | ⟨0, _⟩ => rfl | ⟨1, _⟩ => rfl)
theorem ridx23 (p : Fin 16384) (q : Fin 256) (k : Fin 256) : idx_main_v22 (ridx_main_v23 (ix2 p q) k) = ix2 q k :=
  funext fun a => Fin.ext (by match a with | ⟨0, _⟩ => rfl | ⟨1, _⟩ => rfl)
/-- The bias, broadcast to one row and then over the rows, read at `(p, q)`: the bias at `q`. -/
theorem bidx20 (p : Fin 16384) (q : Fin 256) : idx_main_v19 (idx_main_v20 (ix2 p q)) = ix1 q :=
  funext fun a => Fin.ext (by match a with | ⟨0, _⟩ => rfl)
theorem bidx25 (p : Fin 16384) (q : Fin 256) : idx_main_v24 (idx_main_v25 (ix2 p q)) = ix1 q :=
  funext fun a => Fin.ext (by match a with | ⟨0, _⟩ => rfl)

/-- The first layer as the reference computes it is the specification's, entry by entry. -/
theorem first_layer (x0 : (⟨S16384, .i32⟩ : BufTy).Contents (Elt Ideal)) (x2 : (⟨S100000x256, .f32⟩ : BufTy).Contents (Elt Ideal))
    (x3 : (⟨S256x256, .f32⟩ : BufTy).Contents (Elt Ideal)) (x4 : (⟨S256, .f32⟩ : BufTy).Contents (Elt Ideal)) (p : Fin 16384) (q : Fin 256) :
    val_main_v21 (F := Ideal) x0 x2 x3 x4 (ix2 p q) = linear (val_main_v6 (F := Ideal) x0 x2) x3 x4 p q := by
  rw [val_main_v21_apply, val_main_v18_apply, val_main_v20_apply, val_main_v19_apply, bidx20]
  simp only [val_main_v17_apply, lidx18, ridx18, Ideal.addf_def]
  rfl

/-- And the second. -/
theorem second_layer (x1 : (⟨S16384x32, .i32⟩ : BufTy).Contents (Elt Ideal)) (x2 : (⟨S100000x256, .f32⟩ : BufTy).Contents (Elt Ideal))
    (x5 : (⟨S256x256, .f32⟩ : BufTy).Contents (Elt Ideal)) (x6 : (⟨S256, .f32⟩ : BufTy).Contents (Elt Ideal)) (p : Fin 16384) (q : Fin 256) :
    val_main_v26 (F := Ideal) x1 x2 x5 x6 (ix2 p q) = linear (val_main_v16 (F := Ideal) x1 x2) x5 x6 p q := by
  rw [val_main_v26_apply, val_main_v23_apply, val_main_v25_apply, val_main_v24_apply, bidx25]
  simp only [val_main_v22_apply, lidx23, ridx23, Ideal.addf_def]
  rfl

/-- The reference's result is the specification of the gathered rows, the neighbour means, the weights and the biases. -/
theorem result_eq (x0 : (⟨S16384, .i32⟩ : BufTy).Contents (Elt Ideal)) (x1 : (⟨S16384x32, .i32⟩ : BufTy).Contents (Elt Ideal))
    (x2 : (⟨S100000x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) :
    val_main_v28 (F := Ideal) x0 x1 x2 x3 x4 x5 x6
      = dualLinear (val_main_v6 (F := Ideal) x0 x2) (val_main_v16 (F := Ideal) x1 x2) x3 x5 x4 x6 := by
  funext i
  obtain ⟨p, j, rfl⟩ : ∃ (p : Fin 16384) (j : Fin 512), i = ix2 p j := ⟨i 0, i 1, eq_ix2 i⟩
  rw [val_main_v28_apply, val_main_call0_v0_apply, val_main_call0_cst_apply, dualLinear_apply, Ideal.maximumf_def, Ideal.ofBits_def]
  unfold val_main_v27
  by_cases h : j.val < 256
  · rw [cell_left _ _ _ _ _ _ p j h,
      concatenate_pair_apply_left (t := S16384x512) (s₁ := S16384x256) (s₂ := S16384x256) (1 : Fin 2) _ _
        concatenates_S16384x256_S16384x256_S16384x512_d1 (ix2 p j) rfl (ix2 p ⟨j.val, h⟩)
        (fun b => by match b with | ⟨0, _⟩ => rfl | ⟨1, _⟩ => rfl),
      first_layer]
  · rw [cell_right _ _ _ _ _ _ p j h,
      concatenate_pair_apply_right (t := S16384x512) (s₁ := S16384x256) (s₂ := S16384x256) (1 : Fin 2) _ _
        concatenates_S16384x256_S16384x256_S16384x512_d1 (ix2 p j) rfl rfl
        (ix2 p ⟨j.val - 256, by have := j.isLt; omega⟩)
        (fun b hb => by match b with | ⟨0, _⟩ => rfl | ⟨1, _⟩ => exact absurd rfl hb)
        (by show (j.val - 256) + 256 = j.val; omega),
      second_layer]

end Cert.DualLinear.Ref

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.BodyEntry.lean ====
/-
  The kernel's body at one entry of its output block.

  At a grid point the body holds a 2048-row block of each feature array, both weight matrices whole and already
  transposed (`Wᵀ`, 256 × 256), and both biases as one row (1 × 256). It narrows the features and the weights to
  bfloat16 (no change over the extended reals), multiplies into a zero accumulator, adds the bias row to every row, joins
  the two 2048 × 256 results along the columns, and takes the maximum with zero. So at row `r` of the block and column
  `j` it leaves

      max (Σₖ x[r, k] · Wᵀ[k, q] + b[0, q]) 0,

  with `x`, `Wᵀ`, `b` the first layer's and `q = j` left of column 256, the second layer's and `q = j - 256` from there on.
-/
import proofs.«160729_j69475390980334_1_alg».proof.Proof.Gen.KernelIdeal.Skeleton
import proofs.«160729_j69475390980334_1_alg».proof.Proof.LibDot
import Idealize.ShloMosaic.Lib.Pipeline.Value
import Idealize.ShloMosaic.Lib.ValueLayout
import Idealize.ShloMosaic.Lib.ValueIdx

noncomputable section

namespace Cert.DualLinear.Body

open Cert.KernelIdeal Cert.KernelIdeal.Gen
open Idealize.ShloMosaic Idealize.ShloMosaic.ValueIdx

/-- The body's products are plain rows-by-columns ones: 2048 × 256 against 256 × 256. -/
theorem dot_plain : dot_S2048x256_S256x256_S2048x256_1_0_0_1_n_n = DotDims.plain 2048 256 256 := rfl

/-- One layer inside the block, at `(r, q)`: the narrowed block against the narrowed transposed weights into zero,
    plus the bias row. -/
theorem layer_apply (x : Vec Ideal S2048x256 .f32) (wT : Vec Ideal S256x256 .f32) (b : Vec Ideal S1x256 .f32)
    (r : Fin 2048) (q : Fin 256) :
    addf (matmul dot_S2048x256_S256x256_S2048x256_1_0_0_1_n_n none
            (truncf .bf16 (shapeCast S2048x256 x shapeCasts_S2048x256_S2048x256) bitsLt_bf16_f32)
            (truncf .bf16 (shapeCast S256x256 wT shapeCasts_S256x256_S256x256) bitsLt_bf16_f32)
            (constant (F := Ideal) S2048x256 .f32 0x00000000#32))
         (broadcastTo S2048x256 (shapeCast S1x256 b shapeCasts_S1x256_S1x256) broadcasts_S1x256_S2048x256) (ix2 r q)
      = (∑ k : Fin 256, x (ix2 r k) * wT (ix2 k q)) + b (ix2 (0 : Fin 1) q) := by
  rw [addf_apply, broadcastTo_1b_ab_apply, shapeCast_self, shapeCast_self, shapeCast_self]
  dsimp only [matmul]
  rw [dot_plain, Cert.GNN.matmul_plain_zero_apply]
  rfl

/-- The stored value at row `r`, a column `j` left of 256: the first layer's entry, cut off at zero. -/
theorem pay_left (x₁ x₂ : Vec Ideal S2048x256 .f32) (w₁ w₂ : Vec Ideal S256x256 .f32) (b₁ b₂ : Vec Ideal S1x256 .f32)
    (r : Fin 2048) (j : Fin 512) (h : j.val < 256) :
    k0_pay1 (F := Ideal) x₁ x₂ w₁ w₂ b₁ b₂ (ix2 r j)
      = max ((∑ k : Fin 256, x₁ (ix2 r k) * w₁ (ix2 k ⟨j.val, h⟩)) + b₁ (ix2 (0 : Fin 1) ⟨j.val, h⟩))
          (Ideal.ofBits .f32 0x00000000#32) := by
  unfold k0_pay1
  rw [maximumf_apply, broadcast_apply,
    concatenate_pair_apply_left (t := S2048x512) (s₁ := S2048x256) (s₂ := S2048x256) (1 : Fin 2) _ _
      concatenates_S2048x256_S2048x256_S2048x512_d1 (ix2 r j) rfl (ix2 r ⟨j.val, h⟩)
      (fun b => by match b with | ⟨0, _⟩ => rfl | ⟨1, _⟩ => rfl),
    layer_apply]
  rfl

/-- The stored value at row `r`, a column `j` from 256 on: the second layer's entry at `j - 256`, cut off at zero. -/
theorem pay_right (x₁ x₂ : Vec Ideal S2048x256 .f32) (w₁ w₂ : Vec Ideal S256x256 .f32) (b₁ b₂ : Vec Ideal S1x256 .f32)
    (r : Fin 2048) (j : Fin 512) (h : ¬ j.val < 256) :
    k0_pay1 (F := Ideal) x₁ x₂ w₁ w₂ b₁ b₂ (ix2 r j)
      = max ((∑ k : Fin 256, x₂ (ix2 r k) * w₂ (ix2 k ⟨j.val - 256, by have := j.isLt; omega⟩))
              + b₂ (ix2 (0 : Fin 1) ⟨j.val - 256, by have := j.isLt; omega⟩))
          (Ideal.ofBits .f32 0x00000000#32) := by
  unfold k0_pay1
  rw [maximumf_apply, broadcast_apply,
    concatenate_pair_apply_right (t := S2048x512) (s₁ := S2048x256) (s₂ := S2048x256) (1 : Fin 2) _ _
      concatenates_S2048x256_S2048x256_S2048x512_d1 (ix2 r j) rfl rfl
      (ix2 r ⟨j.val - 256, by have := j.isLt; omega⟩)
      (fun b hb => by match b with | ⟨0, _⟩ => rfl | ⟨1, _⟩ => exact absurd rfl hb)
      (by show (j.val - 256) + 256 = j.val; omega),
    layer_apply]
  rfl

end Cert.DualLinear.Body

end
-- ==== Proof.KernelValue.lean ====
/-
  The kernel's output array after the run is the specification.

  Before the region the host computes the gathered rows, the neighbour means, the two weight matrices transposed and the
  two biases as one row each; the gathered rows and the neighbour means by the very operations the reference uses, so
  they are the reference's stages. The region has eight grid points. At point `t` each feature window holds rows
  `2048 t … 2048 t + 2047` of its array, the weight and bias windows hold their arrays whole, and the output window is
  rows `2048 t … 2048 t + 2047` of the 16384 × 512 result. By the body's value at an entry, what point `t` writes back
  at `(r, j)` is the specification at `(2048 t + r, j)`: the transposed weights read at `(k, q)` give `W[q, k]`, the bias
  row at `(0, q)` gives `b[q]`. Row `R` of the result lies in the block of point `R / 2048`, so the eight blocks cover the
  array and it ends as the specification everywhere.
-/
import proofs.«160729_j69475390980334_1_alg».proof.Proof.Gen.KernelIdeal.Value
import proofs.«160729_j69475390980334_1_alg».proof.Proof.Gen.ReferenceIdeal.Read
import proofs.«160729_j69475390980334_1_alg».proof.Proof.BodyEntry
import proofs.«160729_j69475390980334_1_alg».proof.Proof.Spec
import Idealize.ShloMosaic.Lib.StableHlo.Run
import Idealize.ShloMosaic.Lib.ValueLayout

noncomputable section

namespace Cert.DualLinear.Kern

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)
open Cert.DualLinear Cert.DualLinear.Body

variable (m : (ℓ : Loc nD τ sig) → Buf (Elt Ideal) ℓ) (ρ : Dev nD → PrngReg)

/-! ## What the host hands the region -/

/-- The gathered rows are the reference's stage of that name: the same operations of the node indices and the table. -/
theorem feats_self (c : Dev nD) : (V m c main_v6 : S16384x256.Idx → EReal)
    = Cert.ReferenceIdeal.Read.val_main_v6 (F := Ideal) (m ((c : Thread nD τ).loc main_arg0)) (m ((c : Thread nD τ).loc main_arg2)) := by
  dsimp only [Gen.V, Gen.hostOps0]
  after_results
  rfl

/-- The neighbour means are the reference's stage: the same gather, sum over the 32 neighbours and division by 32. -/
theorem feats_neigh (c : Dev nD) : (V m c main_v16 : S16384x256.Idx → EReal)
    = Cert.ReferenceIdeal.Read.val_main_v16 (F := Ideal) (m ((c : Thread nD τ).loc main_arg1)) (m ((c : Thread nD τ).loc main_arg2)) := by
  dsimp only [Gen.V, Gen.hostOps0]
  after_results
  rfl

/-- The first weight matrix reaches the region transposed. -/
theorem wT_self (c : Dev nD) : (V m c main_v17 : S256x256.Idx → EReal)
    = transpose S256x256 [1, 0] (m ((c : Thread nD τ).loc main_arg3)) transposes_S256x256_S256x256_1_0 := by
  dsimp only [Gen.V, Gen.hostOps0]
  after_results

/-- And the second. -/
theorem wT_neigh (c : Dev nD) : (V m c main_v18 : S256x256.Idx → EReal)
    = transpose S256x256 [1, 0] (m ((c : Thread nD τ).loc main_arg5)) transposes_S256x256_S256x256_1_0 := by
  dsimp only [Gen.V, Gen.hostOps0]
  after_results

/-- The first bias reaches the region as one row. -/
theorem brow_self (c : Dev nD) : (V m c main_v19 : S1x256.Idx → EReal)
    = shapeCast S1x256 (m ((c : Thread nD τ).loc main_arg4)) shapeCasts_S256_S1x256 := by
  dsimp only [Gen.V, Gen.hostOps0]
  after_results
  rfl

/-- And the second. -/
theorem brow_neigh (c : Dev nD) : (V m c main_v20 : S1x256.Idx → EReal)
    = shapeCast S1x256 (m ((c : Thread nD τ).loc main_arg6)) shapeCasts_S256_S1x256 := by
  dsimp only [Gen.V, Gen.hostOps0]
  after_results
  rfl

/-- The transposed first weights at `(k, q)` are the weights at `(q, k)`. -/
theorem wT_self_apply (c : Dev nD) (k q : Fin 256) :
    (V m c main_v17 : S256x256.Idx → EReal) (ix2 k q) = (m ((c : Thread nD τ).loc main_arg3) : S256x256.Idx → EReal) (ix2 q k) := by
  rw [wT_self]
  exact transpose_ix2_apply _ _ k q

theorem wT_neigh_apply (c : Dev nD) (k q : Fin 256) :
    (V m c main_v18 : S256x256.Idx → EReal) (ix2 k q) = (m ((c : Thread nD τ).loc main_arg5) : S256x256.Idx → EReal) (ix2 q k) := by
  rw [wT_neigh]
  exact transpose_ix2_apply _ _ k q

/-- The first bias row at `(0, q)` is the bias at `q`. -/
theorem brow_self_apply (c : Dev nD) (q : Fin 256) :
    (V m c main_v19 : S1x256.Idx → EReal) (ix2 (0 : Fin 1) q) = (m ((c : Thread nD τ).loc main_arg4) : S256.Idx → EReal) (ix1 q) := by
  rw [brow_self]
  exact shapeCast_a_1a_apply _ _ 0 q

theorem brow_neigh_apply (c : Dev nD) (q : Fin 256) :
    (V m c main_v20 : S1x256.Idx → EReal) (ix2 (0 : Fin 1) q) = (m ((c : Thread nD τ).loc main_arg6) : S256.Idx → EReal) (ix1 q) := by
  rw [brow_neigh]
  exact shapeCast_a_1a_apply _ _ 0 q

/-! ## The windows' blocks -/

theorem hz : (![0, 0] : Fin 2 → Nat) = fun _ => 0 := funext fun a => by fin_cases a <;> rfl

/-- The printed index maps over the eight grid points: the two feature windows and the output window sit at block row
    `t`, column block 0; the weight and bias windows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 8 := lt_of_lt_of_eq t.isLt N_0

/-- Row `r` of point `t`'s block is row `2048 t + r` of the array. -/
theorem row_lt (t : Fin cfg0.N) (r : Fin 2048) : t.val * 2048 + r.val < 16384 := by
  have := point_lt t; have := r.isLt; omega

/-- The gathered rows' block at point `t`, entry `(r, k)`: the array's entry `(2048 t + r, k)`. -/
theorem read_self (c : Dev nD) (t : Fin cfg0.N) (r : Fin 2048) (k : Fin 256) :
    iblk m c 0 t (ix2 r k) = (V m c main_v6 : S16384x256.Idx → EReal) (ix2 ⟨t.val * 2048 + r.val, row_lt t r⟩ k) := by
  show (V m c main_v6 : S16384x256.Idx → EReal) (((cfg0.win 0).blk t).view.emb (ix2 r k)) = _
  have he : ((cfg0.win 0).blk t).view.emb (ix2 r k) = ix2 ⟨t.val * 2048 + r.val, row_lt t r⟩ k := by
    obtain ⟨e0, e1, -⟩ := idx_facts t
    funext a; apply Fin.ext
    match a with
    | ⟨0, _⟩ => show win0_0.index t (0 : Fin 2) * 2048 + 1 * r.val = t.val * 2048 + r.val; omega
    | ⟨1, _⟩ => show win0_0.index t (1 : Fin 2) * 256 + 1 * k.val = k.val; omega
  rw [he]

/-- The neighbour means' block, likewise. -/
theorem read_neigh (c : Dev nD) (t : Fin cfg0.N) (r : Fin 2048) (k : Fin 256) :
    iblk m c 1 t (ix2 r k) = (V m c main_v16 : S16384x256.Idx → EReal) (ix2 ⟨t.val * 2048 + r.val, row_lt t r⟩ k) := by
  show (V m c main_v16 : S16384x256.Idx → EReal) (((cfg0.win 1).blk t).view.emb (ix2 r k)) = _
  have he : ((cfg0.win 1).blk t).view.emb (ix2 r k) = ix2 ⟨t.val * 2048 + r.val, row_lt t r⟩ k := by
    obtain ⟨-, -, e0, e1, -⟩ := idx_facts t
    funext a; apply Fin.ext
    match a with
    | ⟨0, _⟩ => show win0_1.index t (0 : Fin 2) * 2048 + 1 * r.val = t.val * 2048 + r.val; omega
    | ⟨1, _⟩ => show win0_1.index t (1 : Fin 2) * 256 + 1 * k.val = k.val; omega
  rw [he]

/-- The transposed first weights' block is the whole array, at every point. -/
theorem read_wT_self (c : Dev nD) (t : Fin cfg0.N) (k q : Fin 256) :
    iblk m c 2 t (ix2 k q) = (V m c main_v17 : S256x256.Idx → EReal) (ix2 k q) := by
  show (V m c main_v17 : S256x256.Idx → EReal) (((cfg0.win 2).blk t).view.emb (ix2 k q)) = _
  have he : ((cfg0.win 2).blk t).view.emb (ix2 k q) = ix2 k q := by
    obtain ⟨-, -, -, -, e0, e1, -⟩ := idx_facts t
    funext a; apply Fin.ext
    match a with
    | ⟨0, _⟩ => show win0_2.index t (0 : Fin 2) * 256 + 1 * k.val = k.val; omega
    | ⟨1, _⟩ => show win0_2.index t (1 : Fin 2) * 256 + 1 * q.val = q.val; omega
  rw [he]

theorem read_wT_neigh (c : Dev nD) (t : Fin cfg0.N) (k q : Fin 256) :
    iblk m c 3 t (ix2 k q) = (V m c main_v18 : S256x256.Idx → EReal) (ix2 k q) := by
  show (V m c main_v18 : S256x256.Idx → EReal) (((cfg0.win 3).blk t).view.emb (ix2 k q)) = _
  have he : ((cfg0.win 3).blk t).view.emb (ix2 k q) = ix2 k q := by
    obtain ⟨-, -, -, -, -, -, e0, e1, -⟩ := idx_facts t
    funext a; apply Fin.ext
    match a with
    | ⟨0, _⟩ => show win0_3.index t (0 : Fin 2) * 256 + 1 * k.val = k.val; omega
    | ⟨1, _⟩ => show win0_3.index t (1 : Fin 2) * 256 + 1 * q.val = q.val; omega
  rw [he]

/-- The first bias row's block is the whole row, at every point. -/
theorem read_b_self (c : Dev nD) (t : Fin cfg0.N) (q : Fin 256) :
    iblk m c 4 t (ix2 (0 : Fin 1) q) = (V m c main_v19 : S1x256.Idx → EReal) (ix2 (0 : Fin 1) q) := by
  show (V m c main_v19 : S1x256.Idx → EReal) (((cfg0.win 4).blk t).view.emb (ix2 (0 : Fin 1) q)) = _
  have he : ((cfg0.win 4).blk t).view.emb (ix2 (0 : Fin 1) q) = ix2 (0 : Fin 1) q := by
    obtain ⟨-, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 256 + 1 * q.val = q.val; omega
  rw [he]

theorem read_b_neigh (c : Dev nD) (t : Fin cfg0.N) (q : Fin 256) :
    iblk m c 5 t (ix2 (0 : Fin 1) q) = (V m c main_v20 : S1x256.Idx → EReal) (ix2 (0 : Fin 1) q) := by
  show (V m c main_v20 : S1x256.Idx → EReal) (((cfg0.win 5).blk t).view.emb (ix2 (0 : Fin 1) q)) = _
  have he : ((cfg0.win 5).blk t).view.emb (ix2 (0 : Fin 1) q) = ix2 (0 : Fin 1) q := by
    obtain ⟨-, -, -, -, -, -, -, -, -, -, e0, e1, -⟩ := idx_facts t
    funext a; apply Fin.ext
    match a with
    | ⟨0, _⟩ => show win0_5.index t (0 : Fin 2) * 1 + 1 * 0 = 0; omega
    | ⟨1, _⟩ => show win0_5.index t (1 : Fin 2) * 256 + 1 * q.val = q.val; omega
  rw [he]

/-- Entry `(r, j)` of the output block at point `t` is entry `(2048 t + r, j)` of the result. -/
theorem out_emb (t : Fin cfg0.N) (r : Fin 2048) (j : Fin 512) :
    ((cfg0.win 6).blk t).view.emb (ix2 r j) = ix2 ⟨t.val * 2048 + r.val, row_lt t r⟩ j := by
  obtain ⟨-, -, -, -, -, -, -, -, -, -, -, -, e0, e1⟩ := idx_facts t
  funext a; apply Fin.ext
  match a with
  | ⟨0, _⟩ => show win0_6.index t (0 : Fin 2) * 2048 + 1 * r.val = t.val * 2048 + r.val; omega
  | ⟨1, _⟩ => show win0_6.index t (1 : Fin 2) * 512 + 1 * j.val = j.val; omega

/-! ## The result -/

/-- The specification at the launch contents of the arguments: the gathered rows and the neighbour means as the
    reference's stages of the indices and the table, the weights and the biases as they are. -/
def result (c : Dev nD) : FVec Ideal ⟨2, ![16384, 512]⟩ .f32 :=
  dualLinear
    (Cert.ReferenceIdeal.Read.val_main_v6 (F := Ideal) (m ((c : Thread nD τ).loc main_arg0)) (m ((c : Thread nD τ).loc main_arg2)))
    (Cert.ReferenceIdeal.Read.val_main_v16 (F := Ideal) (m ((c : Thread nD τ).loc main_arg1)) (m ((c : Thread nD τ).loc main_arg2)))
    (m ((c : Thread nD τ).loc main_arg3)) (m ((c : Thread nD τ).loc main_arg5))
    (m ((c : Thread nD τ).loc main_arg4)) (m ((c : Thread nD τ).loc main_arg6))

/-- What point `t` writes back is its block of the specification. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S2048x256) hz, View.ld_unit_zero (S := S256x256) hz, View.ld_unit_zero (S := S1x256) hz]
  funext y
  obtain ⟨r, j, rfl⟩ : ∃ (r : Fin 2048) (j : Fin 512), y = ix2 r j := ⟨y 0, y 1, eq_ix2 (n0 := 2048) (n1 := 512) y⟩
  show k0_pay1 (F := Ideal) (iblk m c 0 t) (iblk m c 1 t) (iblk m c 2 t) (iblk m c 3 t) (iblk m c 4 t) (iblk m c 5 t) (ix2 r j)
    = result m c (((cfg0.win 6).blk t).view.emb (ix2 r j))
  rw [out_emb t r j]
  unfold result
  rw [dualLinear_apply]
  by_cases h : j.val < 256
  · rw [pay_left _ _ _ _ _ _ r j h, cell_left _ _ _ _ _ _ _ j h]
    unfold linear
    simp only [read_self, read_wT_self, read_b_self]
    refine congrArg₂ max (congrArg₂ (· + ·) (Finset.sum_congr rfl fun k _ => ?_) (brow_self_apply m c _)) rfl
    rw [wT_self_apply, feats_self]
  · rw [pay_right _ _ _ _ _ _ r j h, cell_right _ _ _ _ _ _ _ j h]
    unfold linear
    simp only [read_neigh, read_wT_neigh, read_b_neigh]
    refine congrArg₂ max (congrArg₂ (· + ·) (Finset.sum_congr rfl fun k _ => ?_) (brow_neigh_apply m c _)) rfl
    rw [wT_neigh_apply, feats_neigh]

/-- An index of the result is in point `t`'s block iff each coordinate is in the block's range on its axis. -/
theorem mem_blk (t : Fin cfg0.N) (i : S16384x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v21).slice (win0_6.rect t)).set ↔ _
  rw [View.set_slice_whole, Rect.mem_set_unit]
  exact Iff.rfl

/-- Every entry of the result is in some point's block: row `R` in that of point `R / 2048`. -/
theorem cover (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : (i 0).val / 2048 < cfg0.N := by rw [show cfg0.N = 8 from N_0]; omega
  obtain ⟨-, -, -, -, -, -, -, -, -, -, -, -, e0, e1⟩ := idx_facts ⟨(i 0).val / 2048, hN⟩
  refine ⟨⟨(i 0).val / 2048, hN⟩, flush0_6 _, ?_⟩
  rw [mem_blk]
  intro a
  match a with
  | ⟨0, _⟩ =>
    show win0_6.index ⟨(i 0).val / 2048, hN⟩ (0 : Fin 2) * 2048 ≤ (i 0).val ∧ (i 0).val < win0_6.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_6.index ⟨(i 0).val / 2048, hN⟩ (1 : Fin 2) * 512 ≤ (i 1).val ∧ (i 1).val < win0_6.index ⟨(i 0).val / 2048, hN⟩ (1 : Fin 2) * 512 + 512
    rw [e1]; omega

/-- So the output array ends as the specification. -/
theorem final (c : Dev nD) : (dats m 0 c).arrAt 6 cfg0.N = result m c :=
  (dats m 0 c).arrAt_eq_of_cover 6 (result m c) (fun t _ => flushed_eq m c t) cover

/-- The kernel's run: it ends with the result array at the specification and the arguments as launched. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.DualLinear.Kern

end
-- ==== Proof.lean ====
/-
  Two linear layers over gathered embeddings, side by side, cut off at zero: the kernel against its reference.

  Both programs gather row `x0[p]` of the embedding table for every node `p`, and the mean of the 32 rows `x1[p, ·]`
  names, on the host and by the same operations. The reference then multiplies each 16384 × 256 array of features by its
  transposed 256 × 256 weight matrix, adds its bias to every row, joins the two results along the columns and takes the
  maximum with zero. The kernel does that part in one grid of eight points, 2048 rows at a time, with the features and
  the weights narrowed to bfloat16 before the product.

  Over the extended reals narrowing changes nothing and a product into a zero accumulator is the plain sum over `k`, so
  at row `p` and column `j` both programs hold

      max (Σₖ feats[p, k] · W[q, k] + b[q]) 0,

  with the first layer's features, weights and bias and `q = j` left of column 256, the second layer's and `q = j - 256`
  from there on (`Spec`). The reference is that function of its stages (`RefIs`); the kernel's body leaves it in each
  block (`BodyEntry`), the eight blocks tile the result (`KernelValue`), and the features the kernel's host part hands the
  region are the reference's own stages. The two sums agree term by term, so the inputs' finiteness is never used.

  The three programs' runs end with their arguments unchanged: for the two kernels that is their frame, for the reference
  its run with the result forgotten. The kernel's idealization rewrote nothing, so there is nothing to preserve.
-/
import proofs.«160729_j69475390980334_1_alg».proof.Defs
import proofs.«160729_j69475390980334_1_alg».proof.Proof.Gen.Kernel
import proofs.«160729_j69475390980334_1_alg».proof.Proof.Gen.Kernel.Skeleton
import proofs.«160729_j69475390980334_1_alg».proof.Proof.Gen.Kernel.Launch
import proofs.«160729_j69475390980334_1_alg».proof.Proof.Gen.Kernel.Points
import proofs.«160729_j69475390980334_1_alg».proof.Proof.Gen.Kernel.Frame
import proofs.«160729_j69475390980334_1_alg».proof.Proof.Gen.KernelIdeal
import proofs.«160729_j69475390980334_1_alg».proof.Proof.Gen.KernelIdeal.Skeleton
import proofs.«160729_j69475390980334_1_alg».proof.Proof.Gen.KernelIdeal.Launch
import proofs.«160729_j69475390980334_1_alg».proof.Proof.Gen.KernelIdeal.Points
import proofs.«160729_j69475390980334_1_alg».proof.Proof.Gen.KernelIdeal.Frame
import proofs.«160729_j69475390980334_1_alg».proof.Proof.Gen.ReferenceIdeal
import proofs.«160729_j69475390980334_1_alg».proof.Proof.Gen.Pre_finite_inputs
import proofs.«160729_j69475390980334_1_alg».proof.Proof.Gen.KernelIdeal.Value
import proofs.«160729_j69475390980334_1_alg».proof.Proof.Gen.ReferenceIdeal.Run
import proofs.«160729_j69475390980334_1_alg».proof.Proof.Gen.ReferenceIdeal.Read
import proofs.«160729_j69475390980334_1_alg».proof.Proof.RefIs
import proofs.«160729_j69475390980334_1_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end as the specification of the
    gathered rows, the neighbour means, the weights and the biases. -/
theorem algebraic : Cert.algebraic_KernelIdeal_ReferenceIdeal := by
  intro m ρ m' ρ' _ hagree
  refine ⟨fun c => Cert.DualLinear.Kern.result m c, Cert.DualLinear.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v28_eq, Cert.DualLinear.Ref.result_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
